-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S16384x64 : Shape := ⟨2, ![16384, 64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x2048 .f32) (main_arg1 : FVec F S64x2048 .f32) (main_arg2 : FVec F S16384x64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S16384x64 : Shape := ⟨2, ![16384, 64]⟩
abbrev S64x16384 : Shape := ⟨2, ![64, 16384]⟩
abbrev S1024x2048 : Shape := ⟨2, ![1024, 2048]⟩
abbrev S64x1024 : Shape := ⟨2, ![64, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .hbm, ⟨3, _⟩ => ⟨S64x16384, .f32⟩
  | .hbm, ⟨4, _⟩ => ⟨S64x16384, .f32⟩
  | .hbm, ⟨5, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16384x64_S64x16384_1_0 : S16384x64.Transposes [1, 0] S64x16384
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x16384.size a
  hwx0_2 : ∀ i : grid0.Coords, EltTy.bits .f32 = 32 ∨ (Rect.block (s := S64x16384) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S16384x64 : Shape := ⟨2, ![16384, 64]⟩
abbrev S2048x64 : Shape := ⟨2, ![2048, 64]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .hbm, ⟨3, _⟩ => ⟨S2048x64, .f32⟩
  | .hbm, ⟨4, _⟩ => ⟨S16384x64, .f32⟩
  | .hbm, ⟨5, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x2048_S2048x64_1_0 : S64x2048.Transposes [1, 0] S2048x64
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Body.lean ====
/-
  The kernel body's arithmetic read at one entry. At a grid point the body loads the whole weight block `wv`
  (64 × 2048), the point's activation block `xv` (1024 tokens × 2048) and the point's block `nv` of the
  transposed noise (64 × 1024), narrows the first two to bf16 — the identity on extended reals —, contracts the
  model dimension of both into a zero accumulator, and adds the noise block. So its entry (e, q) is

      (∑ d, wv (e, d) * xv (q, d)) + nv (e, q).

  The contraction's operand indices are read off the dimension numbers axis by axis: both operands contract their
  axis 1; the left operand's axis 0 is the result's axis 0, the right operand's axis 0 the result's axis 1.
-/
import proofs.«176455_g82952998355164_cont_9to1_m_1193_18_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-- The left operand's row is the result's row. -/
theorem lhs_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
/-- The left operand's column is the contraction position. -/
theorem lhs_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
/-- The right operand's row is the result's column. -/
theorem rhs_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
/-- The right operand's column is the contraction position. -/
theorem rhs_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The product into the zero accumulator, at entry (e, q): the e-th row of the left operand against the q-th row of
    the right one. -/
theorem matmul_apply (a : FVec Ideal S64x2048 .bf16) (b : FVec Ideal S1024x2048 .bf16) (e : Fin 64) (q : Fin 1024) :
    matmul dot_S64x2048_S1024x2048_S64x1024_1_1_0_0_n_n none a b (constant (F := Ideal) S64x1024 .f32 0x00000000#32) (ix2 e q)
      = ∑ k : Fin 2048, a (ix2 e k) * b (ix2 q k) := by
  show FloatOps.matmul dot_S64x2048_S1024x2048_S64x1024_1_1_0_0_n_n none a b (constant (F := Ideal) S64x1024 .f32 0x00000000#32) (ix2 e q) = _
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e q) ((contrEquiv1 dot_S64x2048_S1024x2048_S64x1024_1_1_0_0_n_n 2048 rfl rfl).symm k) = ix2 e k := funext fun a => Fin.ext (by
    match a with
    | ⟨0, _⟩ => exact lhs_0 _ _
    | ⟨1, _⟩ => exact (lhs_1 _ _).trans hk)
  have er : dot_S64x2048_S1024x2048_S64x1024_1_1_0_0_n_n.rhsIdx (ix2 e q) ((contrEquiv1 dot_S64x2048_S1024x2048_S64x1024_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-- The body's stored value at entry (e, q). -/
theorem pay_apply (wv : Vec Ideal S64x2048 .f32) (xv : Vec Ideal S1024x2048 .f32) (nv : Vec Ideal S64x1024 .f32)
    (e : Fin 64) (q : Fin 1024) :
    k0_pay1 (F := Ideal) wv xv nv (ix2 e q) = (∑ k : Fin 2048, wv (ix2 e k) * xv (ix2 q k)) + nv (ix2 e q) := by
  unfold k0_pay1
  rw [addf_apply, matmul_apply, shapeCast_self]
  rfl

end Cert.KernelIdeal.Body

end
-- ==== Proof.Spec.lean ====
/-
  The router's gating logits, as ONE function of the three argument arrays, index by index, on the extended reals:

      logits x w nz (tok, e) = (∑ d, w (e, d) * x (tok, d)) + nz (tok, e)          tok < 16384, e < 64, d < 2048

  a token's row of `x` paired with an expert's row of `w`, plus the noise at that (token, expert). The kernel
  computes the TRANSPOSED array `logitsT` (experts along the rows, tokens along the columns) and the program
  transposes it back; `logitsT_transpose` is that transposing the one gives the other. Nothing here needs the
  entries to be finite: sums and products of extended reals are only reordered, never distributed or cancelled.
-/
import Idealize.ShloMosaic.Lib.ValueIdx

noncomputable section

open scoped BigOperators

namespace Cert.Router

open Idealize.ShloMosaic Idealize.ShloMosaic.ValueIdx

/-- The logits: for token `i 0` and expert `i 1`, the expert's weight row times the token's activation row, summed
    over the model dimension, plus the noise entry. -/
def logits (x : FVec Ideal ⟨2, ![16384, 2048]⟩ .f32) (w : FVec Ideal ⟨2, ![64, 2048]⟩ .f32)
    (nz : FVec Ideal ⟨2, ![16384, 64]⟩ .f32) : FVec Ideal ⟨2, ![16384, 64]⟩ .f32 :=
  fun i => (∑ k : Fin 2048, w (ix2 (i 1) k) * x (ix2 (i 0) k)) + nz (ix2 (i 0) (i 1))

/-- The same numbers laid out experts × tokens: entry (e, tok) is `logits` at (tok, e). -/
def logitsT (x : FVec Ideal ⟨2, ![16384, 2048]⟩ .f32) (w : FVec Ideal ⟨2, ![64, 2048]⟩ .f32)
    (nz : FVec Ideal ⟨2, ![16384, 64]⟩ .f32) : FVec Ideal ⟨2, ![64, 16384]⟩ .f32 :=
  fun j => (∑ k : Fin 2048, w (ix2 (j 0) k) * x (ix2 (j 1) k)) + nz (ix2 (j 1) (j 0))

/-- Reading `logitsT` with the two coordinates swapped is `logits`. -/
theorem logitsT_swap (x : FVec Ideal ⟨2, ![16384, 2048]⟩ .f32) (w : FVec Ideal ⟨2, ![64, 2048]⟩ .f32)
    (nz : FVec Ideal ⟨2, ![16384, 64]⟩ .f32) (i : (⟨2, ![16384, 64]⟩ : Shape).Idx) :
    logitsT x w nz (ix2 (i 1) (i 0)) = logits x w nz i := rfl

end Cert.Router

end
-- ==== Proof.KernelLogits.lean ====
/-
  What the kernel program leaves in its result, as a function of the arguments.

  The program transposes the noise to experts × tokens, runs the kernel over 16 grid points, and transposes the
  kernel's experts × tokens result back. At grid point t the kernel sees rows 1024·t … 1024·t + 1023 of `x` (a block of
  1024 tokens), the whole weight array, and columns 1024·t … 1024·t + 1023 of the transposed noise; it writes the same
  columns of the experts × tokens result. Entry (e, q) of what it writes is the body's value there (Body.lean), which in
  terms of the arrays is `logitsT` at (e, 1024·t + q). The 16 column blocks tile the result, so the region leaves
  `logitsT` of the arguments, and the closing transpose turns that into `logits`.
-/
import proofs.«176455_g82952998355164_cont_9to1_m_1193_18_alg».proof.Proof.Gen.KernelIdeal.Frame
import proofs.«176455_g82952998355164_cont_9to1_m_1193_18_alg».proof.Proof.Body
import proofs.«176455_g82952998355164_cont_9to1_m_1193_18_alg».proof.Proof.Spec
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Router

variable (m : (ℓ : Loc nD τ sig) → Buf (Elt Ideal) ℓ) (ρ : Dev nD → PrngReg)

theorem hz : (![0, 0] : Fin 2 → Nat) = fun _ => 0 := funext fun a => by fin_cases a <;> rfl

/-- The three argument arrays on core `c`, at their literal types. -/
abbrev argX (c : Dev nD) : FVec Ideal S16384x2048 .f32 := m ((c : Thread nD τ).loc main_arg0)
abbrev argW (c : Dev nD) : FVec Ideal S64x2048 .f32 := m ((c : Thread nD τ).loc main_arg1)
abbrev argN (c : Dev nD) : FVec Ideal S16384x64 .f32 := m ((c : Thread nD τ).loc main_arg2)

/-- The block index of each window at grid point `t`: the activations move down the rows, the transposed noise and the
    result along the columns, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The array the third window stages is the noise transposed: entry (e, tok) is the noise at (tok, e). -/
theorem V_noiseT (c : Dev nD) (e : Fin 64) (r : Fin 16384) :
    (V m c main_v0 : S64x16384.Idx → Elt Ideal .f32) (ix2 e r) = argN m c (ix2 r e) := by
  have h : (V m c main_v0 : S64x16384.Idx → Elt Ideal .f32)
      = transpose S64x16384 [1, 0] (argN m c) transposes_S16384x64_S64x16384_1_0 := by
    show StableHlo.after hostOps0 (fun b => m (c, b)) (Proc.devRef .tc main_v0) = _
    after_results
  rw [h]
  exact transpose_apply [1, 0] (argN m c) transposes_S16384x64_S64x16384_1_0 (ix2 e r) (ix2 r e) (fun b => match b with
    | ⟨0, _⟩ => rfl
    | ⟨1, _⟩ => rfl)

/-- The activation block at point `t`: rows 1024·t + q of `x`. -/
theorem xblk_apply (c : Dev nD) (t : Fin cfg0.N) (q : Fin 1024) (k : Fin 2048) (r : Fin 16384) (hr : r.val = t.val * 1024 + q.val) :
    (iblk m c 0 t : Vec Ideal S1024x2048 .f32) (ix2 q k) = argX m c (ix2 r k) := by
  obtain ⟨h0, h1, -⟩ := idx_facts t
  unfold iblk
  rw [View.read_apply]
  refine (congrFun (V_main_arg0 m c) _).trans (congrArg (argX m c) (funext fun a => Fin.ext ?_))
  match a with
  | ⟨0, _⟩ => show win0_0.index t (0 : Fin 2) * 1024 + 1 * q.val = r.val; rw [h0, hr]; omega
  | ⟨1, _⟩ => show win0_0.index t (1 : Fin 2) * 2048 + 1 * k.val = k.val; rw [h1]; omega

/-- The weight block at every point is the whole weight array. -/
theorem wblk_apply (c : Dev nD) (t : Fin cfg0.N) (e : Fin 64) (k : Fin 2048) :
    (iblk m c 1 t : Vec Ideal S64x2048 .f32) (ix2 e k) = argW m c (ix2 e k) := by
  obtain ⟨-, -, h0, h1, -⟩ := idx_facts t
  unfold iblk
  rw [View.read_apply]
  refine (congrFun (V_main_arg1 m c) _).trans (congrArg (argW m c) (funext fun a => Fin.ext ?_))
  match a with
  | ⟨0, _⟩ => show win0_1.index t (0 : Fin 2) * 64 + 1 * e.val = e.val; rw [h0]; omega
  | ⟨1, _⟩ => show win0_1.index t (1 : Fin 2) * 2048 + 1 * k.val = k.val; rw [h1]; omega

/-- The noise block at point `t`: columns 1024·t + q of the transposed noise, that is the noise of tokens 1024·t + q. -/
theorem nblk_apply (c : Dev nD) (t : Fin cfg0.N) (e : Fin 64) (q : Fin 1024) (r : Fin 16384) (hr : r.val = t.val * 1024 + q.val) :
    (iblk m c 2 t : Vec Ideal S64x1024 .f32) (ix2 e q) = argN m c (ix2 r e) := by
  obtain ⟨-, -, -, -, h0, h1, -⟩ := idx_facts t
  unfold iblk
  rw [View.read_apply]
  refine Eq.trans (congrArg (V m c main_v0 : S64x16384.Idx → Elt Ideal .f32) (funext fun a => Fin.ext ?_)) (V_noiseT m c e r)
  match a with
  | ⟨0, _⟩ => show win0_2.index t (0 : Fin 2) * 64 + 1 * e.val = e.val; rw [h0]; omega
  | ⟨1, _⟩ => show win0_2.index t (1 : Fin 2) * 1024 + 1 * q.val = r.val; rw [h1, hr]; omega

/-- The body's value at entry (e, q) of point `t`, in terms of the arrays: `logitsT` at (e, 1024·t + q). -/
theorem point_value (c : Dev nD) (t : Fin cfg0.N) (e : Fin 64) (q : Fin 1024) (r : Fin 16384) (hr : r.val = t.val * 1024 + q.val) :
    k0_pay1 (F := Ideal) (iblk m c 1 t) (iblk m c 0 t) (iblk m c 2 t) (ix2 e q)
      = logitsT (argX m c) (argW m c) (argN m c) (ix2 e r) := by
  rw [Body.pay_apply (iblk m c 1 t) (iblk m c 0 t) (iblk m c 2 t) e q, nblk_apply m c t e q r hr]
  unfold logitsT
  show _ = (∑ k : Fin 2048, argW m c (ix2 e k) * argX m c (ix2 r k)) + argN m c (ix2 r e)
  exact congrArg (· + argN m c (ix2 r e)) (Finset.sum_congr rfl fun k _ => by
    rw [wblk_apply m c t e k, xblk_apply m c t q k r hr])

/-- WHAT POINT `t` WRITES BACK is block `t` of `logitsT` of the arguments. -/
theorem flushed_eq (c : Dev nD) (t : Fin cfg0.N) :
    (dats m 0 c).flushed 3 t = ((cfg0.win 3).blk t).view.read (Elt Ideal) (logitsT (argX m c) (argW m c) (argN m c)) := by
  show (cfg0.win 3).cut (grid0.coords t) ((dats m 0 c).after 3 t) = _
  rw [after0_3]
  unfold out0_3
  rw [View.canon_unit_zero hz]
  simp only [View.ld_unit_zero (S := S64x2048) hz, View.ld_unit_zero (S := S1024x2048) hz, View.ld_unit_zero (S := S64x1024) hz]
  funext j
  obtain ⟨-, -, -, -, -, -, h0, h1⟩ := idx_facts t
  have hN : cfg0.N = 16 := N_0
  have ht : t.val < 16 := hN ▸ t.isLt
  have hj0 : (j 0).val < 64 := (j 0).isLt
  have hj1 : (j 1).val < 1024 := (j 1).isLt
  have hemb : ((cfg0.win 3).blk t).view.emb j
      = ix2 (⟨(j 0).val, hj0⟩ : Fin 64) (⟨t.val * 1024 + (j 1).val, by omega⟩ : Fin 16384) := by
    funext a; apply Fin.ext
    match a with
    | ⟨0, _⟩ => show win0_3.index t (0 : Fin 2) * 64 + 1 * (j 0).val = (j 0).val; rw [h0]; omega
    | ⟨1, _⟩ => show win0_3.index t (1 : Fin 2) * 1024 + 1 * (j 1).val = t.val * 1024 + (j 1).val; rw [h1]; omega
  have hloc : (cfg0.win 3).xinj (grid0.coords t) j = ix2 (⟨(j 0).val, hj0⟩ : Fin 64) (⟨(j 1).val, hj1⟩ : Fin 1024) :=
    funext fun a => by match a with | ⟨0, _⟩ => rfl | ⟨1, _⟩ => rfl
  refine Eq.trans (congrArg (k0_pay1 (F := Ideal) (iblk m c 1 t) (iblk m c 0 t) (iblk m c 2 t)) hloc) ?_
  refine Eq.trans (point_value m c t ⟨(j 0).val, hj0⟩ ⟨(j 1).val, hj1⟩ ⟨t.val * 1024 + (j 1).val, by omega⟩ rfl) ?_
  rw [View.read_apply]
  exact congrArg (logitsT (argX m c) (argW m c) (argN m c)) hemb.symm

/-- An index of the result array is in point `t`'s block iff each coordinate is in the block's range on its axis. -/
theorem mem_blk (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- The 16 column blocks tile the result: column r lies in the block of point r / 1024, and every point writes back. -/
theorem cover (i : S64x16384.Idx) : ∃ t : Fin cfg0.N, (cfg0.win 3).flush t = true ∧ i ∈ ((cfg0.win 3).blk t).view.set := by
  have hN : cfg0.N = 16 := N_0
  have hi0 : (i 0).val < 64 := (i 0).isLt
  have hi1 : (i 1).val < 16384 := (i 1).isLt
  obtain ⟨t, ht⟩ : ∃ t : Fin cfg0.N, t.val = (i 1).val / 1024 := ⟨⟨(i 1).val / 1024, by rw [hN]; omega⟩, rfl⟩
  obtain ⟨-, -, -, -, -, -, h0, h1⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [h0]; omega
  | ⟨1, _⟩ => show win0_3.index t (1 : Fin 2) * 1024 ≤ (i 1).val ∧ (i 1).val < win0_3.index t (1 : Fin 2) * 1024 + 1024; rw [h1, ht]; omega

/-- So the region leaves `logitsT` of the arguments in its result array. -/
theorem final (c : Dev nD) : (dats m 0 c).arrAt 3 cfg0.N = logitsT (argX m c) (argW m c) (argN m c) :=
  (dats m 0 c).arrAt_eq_of_cover 3 (logitsT (argX m c) (argW m c) (argN m c)) (fun t _ => flushed_eq m c t) cover

/-- The closing transpose of that array is `logits` of the arguments. -/
theorem tail_eq (c : Dev nD) :
    Pipeline.afterTail₀ cfgs (dats m) 0 (V0 m) [hostOps1] c main_v2 = logits (argX m c) (argW m c) (argN m c) := by
  unfold Pipeline.afterTail₀
  show StableHlo.after hostOps1 _ (Proc.devRef .tc main_v2) = _
  after_results
  rw [(Pipeline.withArrays_arr spec0 launch0.win.arr_inj c _ _ 3).trans (final m c)]
  funext i
  obtain ⟨a, b, rfl⟩ : ∃ (a : Fin 16384) (b : Fin 64), i = ix2 a b := ⟨i 0, i 1, eq_ix2 i⟩
  exact transpose_apply [1, 0] (logitsT (argX m c) (argW m c) (argN m c)) transposes_S64x16384_S16384x64_1_0 (ix2 a b) (ix2 b a) (fun d => match d with
    | ⟨0, _⟩ => rfl
    | ⟨1, _⟩ => rfl)

/-- The program's run, read: the result at `logits` of the arguments, the arguments unchanged. -/
theorem run : θ_run defs (onTc (τ := τ) (main (F := Ideal))) ⟨m, fun _ => 0, ρ⟩ fun r => ∀ c : Dev nD,
      r.2.mem ((c.tc : Thread nD τ).loc main_v2) = logits (argX m c) (argW m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.RefLogits.lean ====
/-
  The reference computes `logits`. Its three host operations — transpose the weights, contract each token's row of
  `x` with a column of the transposed weights, add the noise — read at entry (tok, e) give

      (∑ d, x (tok, d) * w (e, d)) + nz (tok, e),

  the transposed weights at (d, e) being `w (e, d)`. That is `logits` with each product's two factors exchanged.
-/
import proofs.«176455_g82952998355164_cont_9to1_m_1193_18_alg».proof.Proof.Gen.ReferenceIdeal.Read
import proofs.«176455_g82952998355164_cont_9to1_m_1193_18_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The left operand of the contraction at (tok, e) and position k is `x` at (tok, k). -/
theorem lidx_eq (a : Fin 16384) (b : Fin 64) (k : Fin 2048) : lidx_main_v1 (ix2 a b) k = ix2 a k :=
  funext fun d => by match d with | ⟨0, _⟩ => rfl | ⟨1, _⟩ => rfl

/-- The right operand there is the transposed weights at (k, e), that is `w` at (e, k). -/
theorem ridx_eq (a : Fin 16384) (b : Fin 64) (k : Fin 2048) : idx_main_v0 (ridx_main_v1 (ix2 a b) k) = ix2 b k :=
  funext fun d => by match d with | ⟨0, _⟩ => rfl | ⟨1, _⟩ => rfl

/-- The reference's result, as a function of the arguments, is `logits`. -/
theorem ref_eq (x : FVec Ideal S16384x2048 .f32) (w : FVec Ideal S64x2048 .f32) (nz : FVec Ideal S16384x64 .f32) :
    val_main_v2 (F := Ideal) x w nz = Cert.Router.logits x w nz := by
  funext i
  obtain ⟨a, b, rfl⟩ : ∃ (a : Fin 16384) (b : Fin 64), i = ix2 a b := ⟨i 0, i 1, eq_ix2 i⟩
  rw [val_main_v2_apply, val_main_v1_apply]
  simp only [val_main_v0_apply, lidx_eq, ridx_eq]
  unfold Cert.Router.logits
  show (∑ k : Fin 2048, x (ix2 a k) * w (ix2 b k)) + nz (ix2 a b) = (∑ k : Fin 2048, w (ix2 b k) * x (ix2 a k)) + nz (ix2 a b)
  exact congrArg (· + nz (ix2 a b)) (Finset.sum_congr rfl fun k _ => mul_comm _ _)

end Cert.ReferenceIdeal.RefValue

end
-- ==== Proof.lean ====
/-
  The router's gating logits, computed two ways, are one function of the inputs on the extended reals.

  The reference multiplies the activations (16384 tokens × 2048) by the transposed weights (2048 × 64 experts) and adds
  the noise: entry (tok, e) is  (∑ d, x (tok, d) · w (e, d)) + noise (tok, e).
  The kernel works in the transposed layout: it transposes the noise, and at each of 16 grid points contracts the whole
  weight array against a block of 1024 tokens' activations (both narrowed to bf16, which changes no extended real) into a
  zero accumulator, adds the matching 64 × 1024 block of transposed noise, and writes columns 1024·t … 1024·t + 1023 of
  an experts × tokens array; the program transposes that array back. Entry (tok, e) of the result is
  (∑ d, w (e, d) · x (tok, d)) + noise (tok, e).
  The two differ only in the order of the two factors of each product, so the algebraic claim needs commutativity of the
  product and nothing about finiteness: the precondition is never opened.

  Spec.lean states the function (`logits`, and its transposed layout `logitsT`); RefLogits.lean reads the reference's three
  host operations at an index and finds `logits`; Body.lean reads the kernel body's stored value at an entry;
  KernelLogits.lean reads each window's block as rows or columns of the arrays, shows that what point t writes back is
  block t of `logitsT`, that the 16 blocks tile the array, and that the closing transpose gives `logits`. The three frames
  are the generated frame runs (the reference's with its result dropped); the idealization rewrote nothing, so
  `preserves` has nothing to state.
-/
import proofs.«176455_g82952998355164_cont_9to1_m_1193_18_alg».proof.Defs
import proofs.«176455_g82952998355164_cont_9to1_m_1193_18_alg».proof.Proof.Gen.Kernel
import proofs.«176455_g82952998355164_cont_9to1_m_1193_18_alg».proof.Proof.Gen.Kernel.Skeleton
import proofs.«176455_g82952998355164_cont_9to1_m_1193_18_alg».proof.Proof.Gen.Kernel.Launch
import proofs.«176455_g82952998355164_cont_9to1_m_1193_18_alg».proof.Proof.Gen.Kernel.Points
import proofs.«176455_g82952998355164_cont_9to1_m_1193_18_alg».proof.Proof.Gen.Kernel.Frame
import proofs.«176455_g82952998355164_cont_9to1_m_1193_18_alg».proof.Proof.Gen.KernelIdeal
import proofs.«176455_g82952998355164_cont_9to1_m_1193_18_alg».proof.Proof.Gen.KernelIdeal.Skeleton
import proofs.«176455_g82952998355164_cont_9to1_m_1193_18_alg».proof.Proof.Gen.KernelIdeal.Launch
import proofs.«176455_g82952998355164_cont_9to1_m_1193_18_alg».proof.Proof.Gen.KernelIdeal.Points
import proofs.«176455_g82952998355164_cont_9to1_m_1193_18_alg».proof.Proof.Gen.KernelIdeal.Frame
import proofs.«176455_g82952998355164_cont_9to1_m_1193_18_alg».proof.Proof.Gen.ReferenceIdeal
import proofs.«176455_g82952998355164_cont_9to1_m_1193_18_alg».proof.Proof.Gen.Pre_finite_inputs
import proofs.«176455_g82952998355164_cont_9to1_m_1193_18_alg».proof.Proof.Gen.ReferenceIdeal.Run
import proofs.«176455_g82952998355164_cont_9to1_m_1193_18_alg».proof.Proof.Gen.ReferenceIdeal.Read
import proofs.«176455_g82952998355164_cont_9to1_m_1193_18_alg».proof.Proof.KernelLogits
import proofs.«176455_g82952998355164_cont_9to1_m_1193_18_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with `logits` of those arguments in their result. -/
theorem algebraic : Cert.algebraic_KernelIdeal_ReferenceIdeal := by
  intro m ρ m' ρ' _ hagree
  refine ⟨fun c => Cert.Router.logits (Cert.KernelIdeal.Hand.argX m c) (Cert.KernelIdeal.Hand.argW m c) (Cert.KernelIdeal.Hand.argN m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v2_eq]
  exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
